-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x2048x64 : Shape := ⟨4, ![4, 12, 2048, 64]⟩
abbrev S4x2048 : Shape := ⟨2, ![4, 2048]⟩
abbrev S_ : Shape := ⟨0, ![]⟩

class Facts : Prop where
  bcast_S_S4x12x2048x64 : S_.BroadcastsInDim S4x12x2048x64 (![] : Fin 0 → Fin S4x12x2048x64.rank)
  reducesTo_S4x12x2048x64_S_d0_1_2_3 : S4x12x2048x64.ReducesTo [0, 1, 2, 3] S_
  h_S_ : 0 < S_.numel

variable [Facts]

def fn {F : FTy → Type} [FloatOps F] (main_arg0 : FVec F S4x12x2048x64 .f32) (main_arg1 : FVec F S4x12x2048x64 .f32) (main_arg2 : FVec F S4x12x2048x64 .f32) (main_arg3 : IVec S4x2048 32) : IVec S_ 1 :=
  let main_v0 : FVec F S4x12x2048x64 .f32 := Host.absf main_arg0
  let main_cst : FVec F S_ .f32 := constant S_ .f32 0x7F800000#32
  let main_v1 : FVec F S4x12x2048x64 .f32 := broadcastInDim S4x12x2048x64 ![] bcast_S_S4x12x2048x64 main_cst
  let main_v2 : IVec S4x12x2048x64 1 := cmpf .olt main_v0 main_v1
  let main_c : IVec S_ 1 := constantI S_ 1 1#1
  let main_v3 : IVec S_ 1 := (fun x v => Host.reduce IntOp.andi x v reducesTo_S4x12x2048x64_S_d0_1_2_3 h_S_) main_v2 main_c
  let main_v4 : FVec F S4x12x2048x64 .f32 := Host.absf main_arg1
  let main_cst_0 : FVec F S_ .f32 := constant S_ .f32 0x7F800000#32
  let main_v5 : FVec F S4x12x2048x64 .f32 := broadcastInDim S4x12x2048x64 ![] bcast_S_S4x12x2048x64 main_cst_0
  let main_v6 : IVec S4x12x2048x64 1 := cmpf .olt main_v4 main_v5
  let main_c_1 : IVec S_ 1 := constantI S_ 1 1#1
  let main_v7 : IVec S_ 1 := (fun x v => Host.reduce IntOp.andi x v reducesTo_S4x12x2048x64_S_d0_1_2_3 h_S_) main_v6 main_c_1
  let main_v8 : IVec S_ 1 := andi main_v3 main_v7
  let main_v9 : FVec F S4x12x2048x64 .f32 := Host.absf main_arg2
  let main_cst_2 : FVec F S_ .f32 := constant S_ .f32 0x7F800000#32
  let main_v10 : FVec F S4x12x2048x64 .f32 := broadcastInDim S4x12x2048x64 ![] bcast_S_S4x12x2048x64 main_cst_2
  let main_v11 : IVec S4x12x2048x64 1 := cmpf .olt main_v9 main_v10
  let main_c_3 : IVec S_ 1 := constantI S_ 1 1#1
  let main_v12 : IVec S_ 1 := (fun x v => Host.reduce IntOp.andi x v reducesTo_S4x12x2048x64_S_d0_1_2_3 h_S_) main_v11 main_c_3
  let main_v13 : IVec S_ 1 := andi main_v8 main_v12
  main_v13
-- ==== Kernel.lean ====
abbrev S4x12x2048x64 : Shape := ⟨4, ![4, 12, 2048, 64]⟩
abbrev S4x2048 : Shape := ⟨2, ![4, 2048]⟩
abbrev S_ : Shape := ⟨0, ![]⟩
abbrev S4x1x2048 : Shape := ⟨3, ![4, 1, 2048]⟩
abbrev S4x12x2048x2048 : Shape := ⟨4, ![4, 12, 2048, 2048]⟩
abbrev S1x1x256x64 : Shape := ⟨4, ![1, 1, 256, 64]⟩
abbrev S1x1x2048x64 : Shape := ⟨4, ![1, 1, 2048, 64]⟩
abbrev S1x1x2048 : Shape := ⟨3, ![1, 1, 2048]⟩
abbrev S1x1x256x2048 : Shape := ⟨4, ![1, 1, 256, 2048]⟩
abbrev S256x64 : Shape := ⟨2, ![256, 64]⟩
abbrev S2048x64 : Shape := ⟨2, ![2048, 64]⟩
abbrev S2048 : Shape := ⟨1, ![2048]⟩
abbrev S64x2048 : Shape := ⟨2, ![64, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 14
  | .vmem => 12
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S4x2048, .i32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x1x2048, .f32⟩
  | .hbm, ⟨12, _⟩ => ⟨S4x12x2048x64, .f32⟩
  | .hbm, ⟨13, _⟩ => ⟨S4x12x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048, .f32⟩
  | .local _ .vmem, ⟨7, _⟩ => ⟨S1x1x2048, .f32⟩
  | .local _ .vmem, ⟨8, _⟩ => ⟨S1x1x256x64, .f32⟩
  | .local _ .vmem, ⟨9, _⟩ => ⟨S1x1x256x64, .f32⟩
  | .local _ .vmem, ⟨10, _⟩ => ⟨S1x1x256x2048, .f32⟩
  | .local _ .vmem, ⟨11, _⟩ => ⟨S1x1x256x2048, .f32⟩
  | _, _ => ⟨S4x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 12, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bcast_S_S4x2048 : S_.BroadcastsInDim S4x2048 (![] : Fin 0 → Fin S4x2048.rank)
  shapeCasts_S4x2048_S4x1x2048 : S4x2048.ShapeCasts S4x1x2048
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  transposes_S2048x64_p1_0_S64x2048 : S2048x64.Transposes [1, 0] S64x2048
  shapeCasts_S2048_S1x2048 : S2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  shapeCasts_S256x64_S1x1x256x64 : S256x64.ShapeCasts S1x1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S4x12x2048x64.size a
  hwx0_0 : ∀ i : grid0.Coords, EltTy.bits .f32 = 32 ∨ (Rect.block (s := S4x12x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x12x2048x64.size a
  hwx0_1 : ∀ i : grid0.Coords, EltTy.bits .f32 = 32 ∨ (Rect.block (s := S4x12x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x12x2048x64.size a
  hwx0_2 : ∀ i : grid0.Coords, EltTy.bits .f32 = 32 ∨ (Rect.block (s := S4x12x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S4x12x2048x64.size a
  hwx0_4 : ∀ i : grid0.Coords, EltTy.bits .f32 = 32 ∨ (Rect.block (s := S4x12x2048x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S4x12x2048x2048.size a
  hwx0_5 : ∀ i : grid0.Coords, EltTy.bits .f32 = 32 ∨ (Rect.block (s := S4x12x2048x2048) S1x1x256x2048.size (cc0_transform_5 i) (hinb0_5 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x12x2048x64 : Shape := ⟨4, ![4, 12, 2048, 64]⟩
abbrev S4x2048 : Shape := ⟨2, ![4, 2048]⟩
abbrev S4x12x2048x2048 : Shape := ⟨4, ![4, 12, 2048, 2048]⟩
abbrev S_ : Shape := ⟨0, ![]⟩
abbrev S4x1x1x2048 : Shape := ⟨4, ![4, 1, 1, 2048]⟩
abbrev S4x12x2048 : Shape := ⟨3, ![4, 12, 2048]⟩
abbrev S4x12x2048x1 : Shape := ⟨4, ![4, 12, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S4x2048, .i32⟩
  | .hbm, ⟨4, _⟩ => ⟨S4x12x2048x2048, .f32⟩
  | .hbm, ⟨5, _⟩ => ⟨S_, .f32⟩
  | .hbm, ⟨6, _⟩ => ⟨S4x12x2048x2048, .f32⟩
  | .hbm, ⟨7, _⟩ => ⟨S4x12x2048x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x1x1x2048, .f32⟩
  | .hbm, ⟨13, _⟩ => ⟨S_, .f32⟩
  | .hbm, ⟨14, _⟩ => ⟨S4x1x1x2048, .f32⟩
  | .hbm, ⟨15, _⟩ => ⟨S4x1x1x2048, .f32⟩
  | .hbm, ⟨16, _⟩ => ⟨S4x12x2048x2048, .f32⟩
  | .hbm, ⟨17, _⟩ => ⟨S4x12x2048x2048, .f32⟩
  | .hbm, ⟨18, _⟩ => ⟨S_, .f32⟩
  | .hbm, ⟨19, _⟩ => ⟨S4x12x2048x2048, .f32⟩
  | .hbm, ⟨20, _⟩ => ⟨S4x12x2048x2048, .f32⟩
  | .hbm, ⟨21, _⟩ => ⟨S4x12x2048x2048, .f32⟩
  | .hbm, ⟨22, _⟩ => ⟨S_, .f32⟩
  | .hbm, ⟨23, _⟩ => ⟨S4x12x2048, .f32⟩
  | .hbm, ⟨24, _⟩ => ⟨S4x12x2048x1, .f32⟩
  | .hbm, ⟨25, _⟩ => ⟨S_, .f32⟩
  | .hbm, ⟨26, _⟩ => ⟨S4x12x2048x1, .f32⟩
  | .hbm, ⟨27, _⟩ => ⟨S4x12x2048x1, .f32⟩
  | .hbm, ⟨28, _⟩ => ⟨S4x12x2048x2048, .f32⟩
  | .hbm, ⟨29, _⟩ => ⟨S4x12x2048x2048, .f32⟩
  | .hbm, ⟨30, _⟩ => ⟨S4x12x2048x64, .f32⟩
  | _, _ => ⟨S4x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S4x12x2048x2048 : S_.BroadcastsInDim S4x12x2048x2048 (![] : Fin 0 → Fin S4x12x2048x2048.rank)
  bcast_S_S4x2048 : S_.BroadcastsInDim S4x2048 (![] : Fin 0 → Fin S4x2048.rank)
  bcast_S4x2048_S4x1x1x2048_0_3 : S4x2048.BroadcastsInDim S4x1x1x2048 (![0, 3] : Fin 2 → Fin S4x1x1x2048.rank)
  bcast_S_S4x1x1x2048 : S_.BroadcastsInDim S4x1x1x2048 (![] : Fin 0 → Fin S4x1x1x2048.rank)
  bcast_S4x1x1x2048_S4x12x2048x2048_0_1_2_3 : S4x1x1x2048.BroadcastsInDim S4x12x2048x2048 (![0, 1, 2, 3] : Fin 4 → Fin S4x12x2048x2048.rank)
  reducesTo_S4x12x2048x2048_S4x12x2048_d3 : S4x12x2048x2048.ReducesTo [3] S4x12x2048
  h_S_ : 0 < S_.numel
  bcast_S4x12x2048_S4x12x2048x1_0_1_2 : S4x12x2048.BroadcastsInDim S4x12x2048x1 (![0, 1, 2] : Fin 3 → Fin S4x12x2048x1.rank)
  bcast_S_S4x12x2048x1 : S_.BroadcastsInDim S4x12x2048x1 (![] : Fin 0 → Fin S4x12x2048x1.rank)
  bcast_S4x12x2048x1_S4x12x2048x2048_0_1_2_3 : S4x12x2048x1.BroadcastsInDim S4x12x2048x2048 (![0, 1, 2, 3] : Fin 4 → Fin S4x12x2048x2048.rank)
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.Spec.lean ====
/-
  Quadratic attention with a sum normaliser, as one function of the argument arrays over the extended reals.

  For a batch `b`, a head `h`, a query row `i` and a key column `j`:
    score  = (∑ d, q[b,h,i,d] · k[b,h,j,d]) · 1/8 + (1 − mask[b,j]) · (−10⁴) + 3
    weight = score · score
    total  = ∑ j, weight[b,h,i,j]            (a row's normaliser, then + ε)
    prob   = weight / (total + ε)
    out    = ∑ j, prob[b,h,i,j] · v[b,h,j,d]
  The float literals are kept as the words both programs print; only the zero word is ever evaluated.
-/
import Idealize.ShloMosaic.PureOps.Ideal
import Idealize.ShloMosaic.PureOps.Ideal.Laws
import Idealize.ShloMosaic.Lib.ValueIdx

noncomputable section

namespace Attn2Quad

open Idealize.ShloMosaic Idealize.ShloMosaic.ValueIdx

/-- The shape of `q`, `k`, `v` and of the attention output: batch × heads × tokens × head width. -/
abbrev QKV : Shape := ⟨4, ![4, 12, 2048, 64]⟩
/-- The shape of the token mask: batch × tokens. -/
abbrev MSK : Shape := ⟨2, ![4, 2048]⟩
/-- The shape of the probabilities: batch × heads × query tokens × key tokens. -/
abbrev PRB : Shape := ⟨4, ![4, 12, 2048, 2048]⟩

variable (q k v : QKV.Idx → EReal) (am : MSK.Idx → BitVec 32)

/-- The additive mask of key `j` in batch `b`: `(1 − mask) · (−10⁴)`, zero where the token is kept. -/
def addMask (b : Fin 4) (j : Fin 2048) : EReal :=
  (Ideal.ofBits .f32 0x3F800000#32 - FloatOps.sitofp (F := Ideal) .f32 (am (ix2 b j))) * Ideal.ofBits .f32 0xC61C4000#32

/-- The inner product of query row `i` and key row `j` over the head width. -/
def qk (b : Fin 4) (h : Fin 12) (i j : Fin 2048) : EReal :=
  ∑ d : Fin 64, q (ix4 b h i d) * k (ix4 b h j d)

/-- The shifted, masked, scaled score. -/
def score (b : Fin 4) (h : Fin 12) (i j : Fin 2048) : EReal :=
  qk q k b h i j * Ideal.ofBits .f32 0x3E000000#32 + addMask am b j + Ideal.ofBits .f32 0x40400000#32

/-- The unnormalised weight: the score squared. -/
def weight (b : Fin 4) (h : Fin 12) (i j : Fin 2048) : EReal :=
  score q k am b h i j * score q k am b h i j

/-- A query row's normaliser: the sum of its weights plus ε. -/
def total (b : Fin 4) (h : Fin 12) (i : Fin 2048) : EReal :=
  (∑ j : Fin 2048, weight q k am b h i j) + Ideal.ofBits .f32 0x358637BD#32

/-- The normalised weight. -/
def prob (b : Fin 4) (h : Fin 12) (i j : Fin 2048) : EReal :=
  Ideal.div (weight q k am b h i j) (total q k am b h i)

/-- The probabilities as an array. -/
def probArr : PRB.Idx → EReal := fun y => prob q k am (y 0) (y 1) (y 2) (y 3)

/-- The attention output as an array: each row of probabilities against the values. -/
def outArr : QKV.Idx → EReal := fun y => ∑ j : Fin 2048, prob q k am (y 0) (y 1) (y 2) j * v (ix4 (y 0) (y 1) j (y 3))

/-! ## One tile of query rows

The same formulas over one tile: 256 query rows of one head against that head's whole key and value arrays and
the batch's mask row. A tile's probabilities and outputs are those of the whole arrays at the tile's rows. -/

namespace Tile

/-- A tile of query rows (and of output rows). -/
abbrev QT : Shape := ⟨4, ![1, 1, 256, 64]⟩
/-- One head's keys (or values). -/
abbrev KT : Shape := ⟨4, ![1, 1, 2048, 64]⟩
/-- One batch's additive mask row. -/
abbrev MT : Shape := ⟨3, ![1, 1, 2048]⟩

variable (qt : QT.Idx → EReal) (kt vt : KT.Idx → EReal) (mt : MT.Idx → EReal)

def score (r : Fin 256) (j : Fin 2048) : EReal :=
  (∑ d : Fin 64, qt (ix4 (0 : Fin 1) (0 : Fin 1) r d) * kt (ix4 (0 : Fin 1) (0 : Fin 1) j d)) * Ideal.ofBits .f32 0x3E000000#32
    + mt (ix3 (0 : Fin 1) (0 : Fin 1) j) + Ideal.ofBits .f32 0x40400000#32

def weight (r : Fin 256) (j : Fin 2048) : EReal := score qt kt mt r j * score qt kt mt r j

def total (r : Fin 256) : EReal := (∑ j : Fin 2048, weight qt kt mt r j) + Ideal.ofBits .f32 0x358637BD#32

def prob (r : Fin 256) (j : Fin 2048) : EReal := Ideal.div (weight qt kt mt r j) (total qt kt mt r)

def out (r : Fin 256) (d : Fin 64) : EReal := ∑ j : Fin 2048, prob qt kt mt r j * vt (ix4 (0 : Fin 1) (0 : Fin 1) j d)

variable {qt kt vt mt} {q k v : QKV.Idx → EReal} {am : MSK.Idx → BitVec 32}

/-- If the tile's rows are rows `row r` of head (b, h), its keys that head's keys and its mask row batch b's additive
    mask, then the tile's probabilities are the whole arrays' at those rows. -/
theorem prob_eq_of {b : Fin 4} {h : Fin 12} {row : Fin 256 → Fin 2048}
    (hq : ∀ r d, qt (ix4 (0 : Fin 1) (0 : Fin 1) r d) = q (ix4 b h (row r) d))
    (hk : ∀ j d, kt (ix4 (0 : Fin 1) (0 : Fin 1) j d) = k (ix4 b h j d))
    (hm : ∀ j, mt (ix3 (0 : Fin 1) (0 : Fin 1) j) = addMask am b j) (r : Fin 256) (j : Fin 2048) :
    prob qt kt mt r j = Attn2Quad.prob q k am b h (row r) j := by
  simp only [prob, total, weight, score, Attn2Quad.prob, Attn2Quad.total, Attn2Quad.weight, Attn2Quad.score, Attn2Quad.qk,
    hq, hk, hm]

/-- … and its outputs the whole arrays' outputs at those rows, if its values are that head's values. -/
theorem out_eq_of {b : Fin 4} {h : Fin 12} {row : Fin 256 → Fin 2048}
    (hq : ∀ r d, qt (ix4 (0 : Fin 1) (0 : Fin 1) r d) = q (ix4 b h (row r) d))
    (hk : ∀ j d, kt (ix4 (0 : Fin 1) (0 : Fin 1) j d) = k (ix4 b h j d))
    (hv : ∀ j d, vt (ix4 (0 : Fin 1) (0 : Fin 1) j d) = v (ix4 b h j d))
    (hm : ∀ j, mt (ix3 (0 : Fin 1) (0 : Fin 1) j) = addMask am b j) (r : Fin 256) (d : Fin 64) :
    out qt kt vt mt r d = ∑ j : Fin 2048, Attn2Quad.prob q k am b h (row r) j * v (ix4 b h j d) := by
  unfold out
  exact Finset.sum_congr rfl fun j _ => by rw [prob_eq_of hq hk hm r j, hv]

end Tile

end Attn2Quad

end
-- ==== Proof.RefSide.lean ====
/-
  The reference, stage by stage, is the specification: its batched inner products are the sums over the head
  width, its mask is broadcast along heads and query rows without change, its row sum starts from the zero word,
  and its quotient is the extended reals' quotient. Each stage is read at an index built from coordinates.
-/
import proofs.«141425_j47691316855177_1_alg».proof.Proof.Gen.ReferenceIdeal.Read
import proofs.«141425_j47691316855177_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Attn2Quad

variable (x0 x1 x2 : (⟨S4x12x2048x64, .f32⟩ : BufTy).Contents (Elt Ideal)) (x3 : (⟨S4x2048, .i32⟩ : BufTy).Contents (Elt Ideal))

/-- The broadcast mask at (b, h, r, j) is the additive mask of key `j` in batch `b`: heads and query rows do not enter. -/
theorem mask_at (b : Fin 4) (h : Fin 12) (r j : Fin 2048) :
    val_main_v9 (F := Ideal) x3 (ix4 b h r j) = addMask x3 b j := by
  rw [val_main_v9_apply, val_main_v8_apply, val_main_v6_apply, val_main_v7_apply, val_main_cst_1_apply,
    val_main_v5_apply, val_main_v4_apply, val_main_cst_0_apply, val_main_v3_apply]
  have e : idx_main_v6 (idx_main_v9 (ix4 b h r j)) = ix2 b j :=
    funext fun a => Fin.ext (by match a with | ⟨0, _⟩ => rfl | ⟨1, _⟩ => rfl)
  rw [e]; rfl

/-- The batched inner product at (b, h, r, j) is the sum over the head width of q's row r against k's row j. -/
theorem qk_at (b : Fin 4) (h : Fin 12) (r j : Fin 2048) :
    val_main_v0 (F := Ideal) x0 x1 (ix4 b h r j) = qk x0 x1 b h r j := by
  rw [val_main_v0_apply]
  unfold qk
  refine Finset.sum_congr rfl fun d _ => ?_
  have el : lidx_main_v0 (ix4 b h r j) d = ix4 b h r d :=
    funext fun a => Fin.ext (by match a with | ⟨0, _⟩ => rfl | ⟨1, _⟩ => rfl | ⟨2, _⟩ => rfl | ⟨3, _⟩ => rfl)
  have er : ridx_main_v0 (ix4 b h r j) d = ix4 b h j d :=
    funext fun a => Fin.ext (by match a with | ⟨0, _⟩ => rfl | ⟨1, _⟩ => rfl | ⟨2, _⟩ => rfl | ⟨3, _⟩ => rfl)
  rw [el, er]

/-- The squared score at an index. -/
theorem weight_at (b : Fin 4) (h : Fin 12) (r j : Fin 2048) :
    val_main_v13 (F := Ideal) x0 x1 x3 (ix4 b h r j) = weight x0 x1 x3 b h r j := by
  rw [val_main_v13_apply, val_main_v12_apply, val_main_v10_apply, val_main_v2_apply, val_main_v1_apply,
    val_main_cst_apply, val_main_v11_apply, val_main_cst_2_apply, mask_at, qk_at]
  rfl

/-- The normaliser broadcast back along the key axis: the row's sum of weights, from the zero word, plus ε. -/
theorem total_at (b : Fin 4) (h : Fin 12) (r j : Fin 2048) :
    val_main_v18 (F := Ideal) x0 x1 x3 (ix4 b h r j) = total x0 x1 x3 b h r := by
  rw [val_main_v18_apply, val_main_v17_apply, val_main_v15_apply, val_main_v16_apply, val_main_cst_4_apply,
    val_main_v14_apply, val_main_cst_3_apply]
  have e : ∀ k : Fin 2048, idx_main_v14 (idx_main_v15 (idx_main_v18 (ix4 b h r j))) k = ix4 b h r k := fun k =>
    funext fun a => Fin.ext (by match a with | ⟨0, _⟩ => rfl | ⟨1, _⟩ => rfl | ⟨2, _⟩ => rfl | ⟨3, _⟩ => rfl)
  simp only [e, weight_at]
  unfold total
  show (Ideal.ofBits .f32 0x00000000#32 + _) + _ = _
  rw [Ideal.ofBits_zero_f32, zero_add]
  rfl

/-- The quotient at an index. -/
theorem prob_at (b : Fin 4) (h : Fin 12) (r j : Fin 2048) :
    val_main_v19 (F := Ideal) x0 x1 x3 (ix4 b h r j) = prob x0 x1 x3 b h r j := by
  rw [val_main_v19_apply, weight_at, total_at]
  rfl

/-- The reference's second result is the array of probabilities. -/
theorem prob_eq : val_main_v19 (F := Ideal) x0 x1 x3 = probArr x0 x1 x3 := by
  funext y
  obtain ⟨b, h, r, j, rfl⟩ : ∃ (b : Fin 4) (h : Fin 12) (r j : Fin 2048), y = ix4 b h r j :=
    ⟨y 0, y 1, y 2, y 3, eq_ix4 y⟩
  exact prob_at x0 x1 x3 b h r j

/-- The reference's first result is the attention output: each row of probabilities against the values. -/
theorem out_eq : val_main_v20 (F := Ideal) x0 x1 x2 x3 = outArr x0 x1 x2 x3 := by
  funext y
  obtain ⟨b, h, r, d, rfl⟩ : ∃ (b : Fin 4) (h : Fin 12) (r : Fin 2048) (d : Fin 64), y = ix4 b h r d :=
    ⟨y 0, y 1, y 2, y 3, eq_ix4 y⟩
  rw [val_main_v20_apply]
  show _ = ∑ j : Fin 2048, prob x0 x1 x3 b h r j * x2 (ix4 b h j d)
  refine Finset.sum_congr rfl fun k _ => ?_
  have el : lidx_main_v20 (ix4 b h r d) k = ix4 b h r k :=
    funext fun a => Fin.ext (by match a with | ⟨0, _⟩ => rfl | ⟨1, _⟩ => rfl | ⟨2, _⟩ => rfl | ⟨3, _⟩ => rfl)
  have er : ridx_main_v20 (ix4 b h r d) k = ix4 b h k d :=
    funext fun a => Fin.ext (by match a with | ⟨0, _⟩ => rfl | ⟨1, _⟩ => rfl | ⟨2, _⟩ => rfl | ⟨3, _⟩ => rfl)
  rw [el, er, prob_at]

end Cert.ReferenceIdeal.RefValue

end
-- ==== Proof.KernelPay.lean ====
/-
  What the kernel body computes for one tile, read index by index at the extended reals.

  The body's two matrix products are plain sums over the contracted axis (the first against the transposed keys,
  so both factors are read along the head width), its row sum is the sum over the key axis, a change of float
  format is the identity, and every re-laying (unit axes added or dropped, a row or a column broadcast) reads one
  element of its operand. Put together, what the body stores into the probability tile is the tile's quotient
  weight / (row total + ε), and what it stores into the output tile is that row of quotients against the values.
-/
import proofs.«141425_j47691316855177_1_alg».proof.Proof.Gen.KernelIdeal.Skeleton
import proofs.«141425_j47691316855177_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen
open Idealize.ShloMosaic Idealize.ShloMosaic.TcCoe Idealize.ShloMosaic.ValueIdx Attn2Quad

/-! ## Re-layings read at an index -/

section Layout
variable {α : Type}

/-- A `[1, 1, a, b]` array cast to `[a, b]` reads, at `(i, j)`, the operand at `(0, 0, i, j)`. -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`. -/
theorem cast_ab_11ab {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add])

/-- A `[1, 1, a]` array cast to `[a]` reads, at `i`, the operand at `(0, 0, i)`. -/
theorem cast_11a_a {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem bcast_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two matrix products and the row sum -/

theorem lhs_qk_0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem lhs_qk_1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
theorem rhs_qk_0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
theorem rhs_qk_1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- Queries against transposed keys into the zero accumulator: at (r, j) the sum over the head width of the query
    row r times the key row j. -/
theorem scores_at (A : FVec Ideal S256x64 .bf16) (B : FVec Ideal S2048x64 .bf16) (r : Fin 256) (j : Fin 2048) :
    matmul dot_S256x64_S64x2048_S256x2048_1_0_0_1_n_n none A (transpose S64x2048 [1, 0] B transposes_S2048x64_p1_0_S64x2048)
        (constant (F := Ideal) S256x2048 .f32 0x00000000#32) (ix2 r j)
      = ∑ d : Fin 64, A (ix2 r d) * B (ix2 j d) := by
  refine (Ideal.matmul_constant_zero_apply dot_S256x64_S64x2048_S256x2048_1_0_0_1_n_n none A _ (ix2 r j)).trans ?_
  rw [← Equiv.sum_comp (contrEquiv1 dot_S256x64_S64x2048_S256x2048_1_0_0_1_n_n 64 rfl rfl).symm]
  refine Finset.sum_congr rfl fun d _ => ?_
  have hk := contrEquiv1_symm_val dot_S256x64_S64x2048_S256x2048_1_0_0_1_n_n 64 rfl rfl d
  have el : dot_S256x64_S64x2048_S256x2048_1_0_0_1_n_n.lhsIdx (ix2 r j) ((contrEquiv1 dot_S256x64_S64x2048_S256x2048_1_0_0_1_n_n 64 rfl rfl).symm d) = ix2 r d := funext fun a => Fin.ext (by
    match a with
    | ⟨0, _⟩ => exact lhs_qk_0 _ _
    | ⟨1, _⟩ => exact (lhs_qk_1 _ _).trans hk)
  have er : dot_S256x64_S64x2048_S256x2048_1_0_0_1_n_n.rhsIdx (ix2 r j) ((contrEquiv1 dot_S256x64_S64x2048_S256x2048_1_0_0_1_n_n 64 rfl rfl).symm d) = ix2 d j := funext fun a => Fin.ext (by
    match a with
    | ⟨0, _⟩ => exact (rhs_qk_0 _ _).trans hk
    | ⟨1, _⟩ => exact rhs_qk_1 _ _)
  rw [el, er, transpose_ix2_apply]

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Probabilities against values into the zero accumulator: at (r, d) the sum over the keys of row r's entries
    times the values' column d. -/
theorem pv_at (A : FVec Ideal S256x2048 .bf16) (B : FVec Ideal S2048x64 .bf16) (r : Fin 256) (d : Fin 64) :
    matmul dot_S256x2048_S2048x64_S256x64_1_0_0_1_n_n none A B (constant (F := Ideal) S256x64 .f32 0x00000000#32) (ix2 r d)
      = ∑ j : Fin 2048, A (ix2 r j) * B (ix2 j d) := by
  refine (Ideal.matmul_constant_zero_apply dot_S256x2048_S2048x64_S256x64_1_0_0_1_n_n none A B (ix2 r d)).trans ?_
  rw [← Equiv.sum_comp (contrEquiv1 dot_S256x2048_S2048x64_S256x64_1_0_0_1_n_n 2048 rfl rfl).symm]
  refine Finset.sum_congr rfl fun j _ => ?_
  have hk := contrEquiv1_symm_val dot_S256x2048_S2048x64_S256x64_1_0_0_1_n_n 2048 rfl rfl j
  have el : dot_S256x2048_S2048x64_S256x64_1_0_0_1_n_n.lhsIdx (ix2 r d) ((contrEquiv1 dot_S256x2048_S2048x64_S256x64_1_0_0_1_n_n 2048 rfl rfl).symm j) = ix2 r j := funext fun a => Fin.ext (by
    match a with
    | ⟨0, _⟩ => exact lhs_pv_0 _ _
    | ⟨1, _⟩ => exact (lhs_pv_1 _ _).trans hk)
  have er : dot_S256x2048_S2048x64_S256x64_1_0_0_1_n_n.rhsIdx (ix2 r d) ((contrEquiv1 dot_S256x2048_S2048x64_S256x64_1_0_0_1_n_n 2048 rfl rfl).symm j) = ix2 j d := funext fun a => Fin.ext (by
    match a with
    | ⟨0, _⟩ => exact (rhs_pv_0 _ _).trans hk
    | ⟨1, _⟩ => exact rhs_pv_1 _ _)
  rw [el, er]

/-- The lane sum of a row: the sum over the key axis. -/
theorem rowsum_at (X : FVec Ideal S256x2048 .f32) (hφ : FKind.Formats .f32) (hacc : (0x00000000#32 : BitVec 32) = 0x00000000#32)
    (r : Fin 256) :
    multiReduction .add [1] S256 X 0x00000000#32 reduces_S256x2048_S256 hφ hacc (ix1 r) = ∑ j : Fin 2048, X (ix2 r j) := by
  refine (Ideal.multiReduction_add_single X 0x00000000#32 reduces_S256x2048_S256 hφ hacc (ix1 r)).trans ?_
  exact Finset.sum_congr rfl fun j _ => congrArg X (funext fun a => Fin.ext (by match a with | ⟨0, _⟩ => rfl | ⟨1, _⟩ => rfl))

/-! ## The body in three steps -/

/-- The raw scores of a tile: queries and keys, unit axes dropped and formats changed, multiplied. -/
def scoresV (P0 : Vec Ideal S1x1x256x64 .f32) (P1 : Vec Ideal S1x1x2048x64 .f32) : FVec Ideal S256x2048 .f32 :=
  matmul dot_S256x64_S64x2048_S256x2048_1_0_0_1_n_n none
    (truncf .bf16 (shapeCast S256x64 P0 shapeCasts_S1x1x256x64_S256x64) bitsLt_bf16_f32)
    (transpose S64x2048 [1, 0] (truncf .bf16 (shapeCast S2048x64 P1 shapeCasts_S1x1x2048x64_S2048x64) bitsLt_bf16_f32) transposes_S2048x64_p1_0_S64x2048)
    (constant S256x2048 .f32 0x00000000#32)

/-- Scale, add the mask row to every query row, shift. -/
def shiftV (S : FVec Ideal S256x2048 .f32) (M : FVec Ideal S2048 .f32) : FVec Ideal S256x2048 .f32 :=
  addf (addf (mulf S (broadcast S256x2048 (Scalar.ofBits .f32 0x3E000000#32)))
      (broadcastTo S256x2048 (shapeCast S1x2048 M shapeCasts_S2048_S1x2048) broadcasts_S1x2048_S256x2048))
    (broadcast S256x2048 (Scalar.ofBits .f32 0x40400000#32))

/-- Divide every row by its sum plus ε. -/
def normV (W : FVec Ideal S256x2048 .f32) : FVec Ideal S256x2048 .f32 :=
  divf W (broadcastTo S256x2048 (addf (shapeCast S256x1 (multiReduction .add [1] S256 W 0x00000000#32 reduces_S256x2048_S256 (.inl rfl) rfl) shapeCasts_S256_S256x1)
    (broadcast S256x1 (Scalar.ofBits .f32 0x358637BD#32))) broadcasts_S256x1_S256x2048)

/-- The body's quotient is these three steps, the shifted score squared in between. -/
theorem pay2_eq (P0 : Vec Ideal S1x1x256x64 .f32) (P1 : Vec Ideal S1x1x2048x64 .f32) (P2 : Vec Ideal S1x1x2048 .f32) :
    k0_pay2 (F := Ideal) P0 P1 P2
      = normV (mulf (shiftV (scoresV P0 P1) (shapeCast S2048 P2 shapeCasts_S1x1x2048_S2048))
          (shiftV (scoresV P0 P1) (shapeCast S2048 P2 shapeCasts_S1x1x2048_S2048))) := rfl

theorem scoresV_at (P0 : Vec Ideal S1x1x256x64 .f32) (P1 : Vec Ideal S1x1x2048x64 .f32) (r : Fin 256) (j : Fin 2048) :
    scoresV P0 P1 (ix2 r j) = ∑ d : Fin 64, P0 (ix4 (0 : Fin 1) (0 : Fin 1) r d) * P1 (ix4 (0 : Fin 1) (0 : Fin 1) j d) := by
  unfold scoresV
  refine (scores_at _ _ r j).trans ?_
  refine Finset.sum_congr rfl fun d _ => ?_
  show shapeCast S256x64 P0 shapeCasts_S1x1x256x64_S256x64 (ix2 r d) * shapeCast S2048x64 P1 shapeCasts_S1x1x2048x64_S2048x64 (ix2 j d) = _
  rw [cast_11ab_ab, cast_11ab_ab]

theorem shiftV_at (S : FVec Ideal S256x2048 .f32) (M : FVec Ideal S2048 .f32) (r : Fin 256) (j : Fin 2048) :
    shiftV S M (ix2 r j) = S (ix2 r j) * Ideal.ofBits .f32 0x3E000000#32 + M (ix1 j) + Ideal.ofBits .f32 0x40400000#32 := by
  unfold shiftV
  show S (ix2 r j) * Ideal.ofBits .f32 0x3E000000#32
      + broadcastTo S256x2048 (shapeCast S1x2048 M shapeCasts_S2048_S1x2048) broadcasts_S1x2048_S256x2048 (ix2 r j)
      + Ideal.ofBits .f32 0x40400000#32 = _
  rw [broadcastTo_1b_ab_apply, shapeCast_a_1a_apply]

theorem normV_at (W : FVec Ideal S256x2048 .f32) (r : Fin 256) (j : Fin 2048) :
    normV W (ix2 r j) = Ideal.div (W (ix2 r j)) ((∑ j' : Fin 2048, W (ix2 r j')) + Ideal.ofBits .f32 0x358637BD#32) := by
  unfold normV
  show Ideal.div (W (ix2 r j)) (broadcastTo S256x2048 _ broadcasts_S256x1_S256x2048 (ix2 r j)) = _
  refine congrArg (Ideal.div (W (ix2 r j))) ?_
  refine (bcast_a1_ab _ broadcasts_S256x1_S256x2048 r j).trans ?_
  show shapeCast S256x1 _ shapeCasts_S256_S256x1 (ix2 r (0 : Fin 1)) + Ideal.ofBits .f32 0x358637BD#32 = _
  refine congrArg (· + Ideal.ofBits .f32 0x358637BD#32) ?_
  exact (cast_a_a1 _ shapeCasts_S256_S256x1 r (0 : Fin 1)).trans (rowsum_at W _ _ r)

/-! ## The stored values -/

/-- The body's quotient at (r, j) is the tile's probability. -/
theorem pay2_at (P0 : Vec Ideal S1x1x256x64 .f32) (P1 : Vec Ideal S1x1x2048x64 .f32) (P2 : Vec Ideal S1x1x2048 .f32)
    (r : Fin 256) (j : Fin 2048) :
    k0_pay2 (F := Ideal) P0 P1 P2 (ix2 r j) = Tile.prob P0 P1 P2 r j := by
  rw [pay2_eq]
  refine (normV_at _ r j).trans ?_
  have hs : ∀ j' : Fin 2048, shiftV (scoresV P0 P1) (shapeCast S2048 P2 shapeCasts_S1x1x2048_S2048) (ix2 r j') = Tile.score P0 P1 P2 r j' := fun j' => by
    rw [shiftV_at, scoresV_at, cast_11a_a]; rfl
  show Ideal.div (shiftV (scoresV P0 P1) (shapeCast S2048 P2 shapeCasts_S1x1x2048_S2048) (ix2 r j) * shiftV (scoresV P0 P1) (shapeCast S2048 P2 shapeCasts_S1x1x2048_S2048) (ix2 r j))
      ((∑ j' : Fin 2048, shiftV (scoresV P0 P1) (shapeCast S2048 P2 shapeCasts_S1x1x2048_S2048) (ix2 r j') * shiftV (scoresV P0 P1) (shapeCast S2048 P2 shapeCasts_S1x1x2048_S2048) (ix2 r j')) + Ideal.ofBits .f32 0x358637BD#32) = _
  simp only [hs]
  rfl

/-- What the body stores into the probability tile, at (0, 0, r, j). -/
theorem pay3_at (P0 : Vec Ideal S1x1x256x64 .f32) (P1 : Vec Ideal S1x1x2048x64 .f32) (P2 : Vec Ideal S1x1x2048 .f32)
    (u w : Fin 1) (r : Fin 256) (j : Fin 2048) :
    k0_pay3 (F := Ideal) P0 P1 P2 (ix4 u w r j) = Tile.prob P0 P1 P2 r j := by
  unfold k0_pay3
  exact (cast_ab_11ab _ shapeCasts_S256x2048_S1x1x256x2048 u w r j).trans (pay2_at P0 P1 P2 r j)

/-- What the body stores into the output tile, at (0, 0, r, d): row r of the probabilities against the values. -/
theorem pay1_at (P0 : Vec Ideal S1x1x256x64 .f32) (P1 : Vec Ideal S1x1x2048x64 .f32) (P2 : Vec Ideal S1x1x2048 .f32)
    (P3 : Vec Ideal S1x1x2048x64 .f32) (u w : Fin 1) (r : Fin 256) (d : Fin 64) :
    k0_pay1 (F := Ideal) (k0_pay4 P0 P1 P2) (k0_pay5 P3) (constant S256x64 .f32 0x00000000#32) (ix4 u w r d)
      = Tile.out P0 P1 P3 P2 r d := by
  unfold k0_pay1
  refine (cast_ab_11ab _ shapeCasts_S256x64_S1x1x256x64 u w r d).trans ?_
  refine (pv_at _ _ r d).trans ?_
  unfold Tile.out
  refine Finset.sum_congr rfl fun j _ => ?_
  show k0_pay2 (F := Ideal) P0 P1 P2 (ix2 r j) * shapeCast S2048x64 P3 shapeCasts_S1x1x2048x64_S2048x64 (ix2 j d) = _
  rw [pay2_at, cast_11ab_ab]

/-! ## A tile whose rows are rows of the whole arrays -/

section Point
variable {q k v : QKV.Idx → EReal} {am : MSK.Idx → BitVec 32} {b : Fin 4} {h : Fin 12} {row : Fin 256 → Fin 2048}
variable (P0 : Vec Ideal S1x1x256x64 .f32) (P1 : Vec Ideal S1x1x2048x64 .f32) (P2 : Vec Ideal S1x1x2048 .f32)
  (P3 : Vec Ideal S1x1x2048x64 .f32)

/-- When the loaded blocks are rows `row r` of head (b, h)'s queries, that head's keys and batch b's additive mask,
    the stored probability tile holds the whole arrays' probabilities of those rows. -/
theorem prob_point
    (hq : ∀ r d, P0 (ix4 (0 : Fin 1) (0 : Fin 1) r d) = q (ix4 b h (row r) d))
    (hk : ∀ j d, P1 (ix4 (0 : Fin 1) (0 : Fin 1) j d) = k (ix4 b h j d))
    (hm : ∀ j, P2 (ix3 (0 : Fin 1) (0 : Fin 1) j) = addMask am b j) (y : S1x1x256x2048.Idx) :
    k0_pay3 (F := Ideal) P0 P1 P2 y = prob q k am b h (row (y 2)) (y 3) := by
  obtain ⟨u, w, r, j, rfl⟩ : ∃ (u w : Fin 1) (r : Fin 256) (j : Fin 2048), y = ix4 u w r j := ⟨y 0, y 1, y 2, y 3, eq_ix4 y⟩
  exact (pay3_at P0 P1 P2 u w r j).trans (Tile.prob_eq_of hq hk hm r j)

/-- … and the stored output tile holds those rows of probabilities against head (b, h)'s values. -/
theorem out_point
    (hq : ∀ r d, P0 (ix4 (0 : Fin 1) (0 : Fin 1) r d) = q (ix4 b h (row r) d))
    (hk : ∀ j d, P1 (ix4 (0 : Fin 1) (0 : Fin 1) j d) = k (ix4 b h j d))
    (hv : ∀ j d, P3 (ix4 (0 : Fin 1) (0 : Fin 1) j d) = v (ix4 b h j d))
    (hm : ∀ j, P2 (ix3 (0 : Fin 1) (0 : Fin 1) j) = addMask am b j) (y : S1x1x256x64.Idx) :
    k0_pay1 (F := Ideal) (k0_pay4 P0 P1 P2) (k0_pay5 P3) (constant S256x64 .f32 0x00000000#32) y
      = ∑ j : Fin 2048, prob q k am b h (row (y 2)) j * v (ix4 b h j (y 3)) := by
  obtain ⟨u, w, r, d, rfl⟩ : ∃ (u w : Fin 1) (r : Fin 256) (d : Fin 64), y = ix4 u w r d := ⟨y 0, y 1, y 2, y 3, eq_ix4 y⟩
  exact (pay1_at P0 P1 P2 P3 u w r d).trans (Tile.out_eq_of hq hk hv hm r d)

end Point

end Cert.KernelIdeal.TileValue

end
-- ==== Proof.KernelGrid.lean ====
/-
  The grid and the tiles. Grid point (b, h, i), the points in row-major order, takes query rows 256·i … 256·i + 255
  of head (b, h): the query, probability and output windows move together through (batch, head, tile), the key and
  value windows follow (batch, head), the mask window follows the batch. Every row of either result lies in exactly
  the tile row / 256 of its head, so the tiles cover both result arrays.
-/
import proofs.«141425_j47691316855177_1_alg».proof.Proof.Gen.KernelIdeal.Value

noncomputable section

namespace Cert.KernelIdeal.ArrValue

open Cert.KernelIdeal Cert.KernelIdeal.Gen
open Idealize.ShloMosaic Idealize.ShloMosaic.TcCoe Idealize.SL.Sem

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## Where each window's block sits at a grid point -/

/-- The printed index maps, decided over the grid: queries, probabilities and outputs move together through
    (batch, head, tile); keys and values follow (batch, head); the mask row follows the batch. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 3) = win0_5.index t (0 : Fin 4) ∧ win0_3.index t (1 : Fin 3) = 0 ∧ win0_3.index t (2 : Fin 3) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) < 4 ∧ win0_5.index t (1 : Fin 4) < 12 ∧ win0_5.index t (2 : Fin 4) < 8 ∧ win0_5.index t (3 : Fin 4) = 0) :=
  (by decide +kernel : ∀ t : Fin grid0.N, _)

/-- The grid's points run through (batch, head, tile) in row-major order. -/
theorem idx_coords : ∀ t : Fin cfg0.N, win0_5.index t (0 : Fin 4) = t.val / 96 ∧ win0_5.index t (1 : Fin 4) = t.val / 8 % 12
    ∧ win0_5.index t (2 : Fin 4) = t.val % 8 :=
  (by decide +kernel : ∀ t : Fin grid0.N, _)

/-- Every (batch, head, tile) is some grid point's. -/
theorem idx_onto (q0 : Fin 4) (q1 : Fin 12) (q2 : Fin 8) :
    ∃ t : Fin cfg0.N, win0_5.index t (0 : Fin 4) = q0.val ∧ win0_5.index t (1 : Fin 4) = q1.val ∧ win0_5.index t (2 : Fin 4) = q2.val := by
  have hN : grid0.N = 384 := N_0
  have h0 := q0.isLt
  have h1 := q1.isLt
  have h2 := q2.isLt
  refine ⟨⟨q0.val * 96 + q1.val * 8 + q2.val, by show _ < grid0.N; omega⟩, ?_⟩
  obtain ⟨c0, c1, c2⟩ := idx_coords ⟨q0.val * 96 + q1.val * 8 + q2.val, by show _ < grid0.N; omega⟩
  rw [c0, c1, c2]
  show (q0.val * 96 + q1.val * 8 + q2.val) / 96 = q0.val ∧ (q0.val * 96 + q1.val * 8 + q2.val) / 8 % 12 = q1.val
    ∧ (q0.val * 96 + q1.val * 8 + q2.val) % 8 = q2.val
  omega

/-- The batch, the head and the array row of tile row `r` at grid point `t`. -/
def batchOf (t : Fin cfg0.N) : Fin 4 := ⟨win0_5.index t (0 : Fin 4), (idx_facts t).2.2.2.2.2.1⟩
def headOf (t : Fin cfg0.N) : Fin 12 := ⟨win0_5.index t (1 : Fin 4), (idx_facts t).2.2.2.2.2.2.1⟩
def rowOf (t : Fin cfg0.N) (r : Fin 256) : Fin 2048 :=
  ⟨win0_5.index t (2 : Fin 4) * 256 + r.val, by have := (idx_facts t).2.2.2.2.2.2.2.1; have := r.isLt; omega⟩

/-! ## The tiles cover both arrays -/

theorem mem_blk5 (t : Fin cfg0.N) (i : S4x12x2048x2048.Idx) :
    i ∈ ((cfg0.win 5).blk t).view.set ↔ ∀ a : Fin 4, win0_5.index t a * S1x1x256x2048.size a ≤ (i a).val ∧ (i a).val < win0_5.index t a * S1x1x256x2048.size a + S1x1x256x2048.size a := by
  show i ∈ ((View.whole main_v6_1).slice (win0_5.rect t)).set ↔ _
  rw [View.set_slice_whole, Rect.mem_set_unit]
  exact Iff.rfl

theorem mem_blk4 (t : Fin cfg0.N) (i : S4x12x2048x64.Idx) :
    i ∈ ((cfg0.win 4).blk t).view.set ↔ ∀ a : Fin 4, win0_4.index t a * S1x1x256x64.size a ≤ (i a).val ∧ (i a).val < win0_4.index t a * S1x1x256x64.size a + S1x1x256x64.size a := by
  show i ∈ ((View.whole main_v6_0).slice (win0_4.rect t)).set ↔ _
  rw [View.set_slice_whole, Rect.mem_set_unit]
  exact Iff.rfl

/-- Row `i 2` of head (i 0, i 1) of the probability array is in tile (i 2) / 256 of that head. -/
theorem cover5 (i : S4x12x2048x2048.Idx) : ∃ t : Fin cfg0.N, (cfg0.win 5).flush t = true ∧ i ∈ ((cfg0.win 5).blk t).view.set := by
  have hi0 : (i 0).val < 4 := (i 0).isLt
  have hi1 : (i 1).val < 12 := (i 1).isLt
  have hi2 : (i 2).val < 2048 := (i 2).isLt
  have hi3 : (i 3).val < 2048 := (i 3).isLt
  obtain ⟨t, q0, q1, q2⟩ := idx_onto ⟨(i 0).val, hi0⟩ ⟨(i 1).val, hi1⟩ ⟨(i 2).val / 256, by omega⟩
  have q0 : win0_5.index t (0 : Fin 4) = (i 0).val := q0
  have q1 : win0_5.index t (1 : Fin 4) = (i 1).val := q1
  have q2 : win0_5.index t (2 : Fin 4) = (i 2).val / 256 := q2
  have q3 : win0_5.index t (3 : Fin 4) = 0 := (idx_facts t).2.2.2.2.2.2.2.2
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 256 ≤ (i 2).val ∧ (i 2).val < win0_5.index t (2 : Fin 4) * 256 + 256; omega
  | ⟨3, _⟩ => show win0_5.index t (3 : Fin 4) * 2048 ≤ (i 3).val ∧ (i 3).val < win0_5.index t (3 : Fin 4) * 2048 + 2048; omega

/-- The same for the output array. -/
theorem cover4 (i : S4x12x2048x64.Idx) : ∃ t : Fin cfg0.N, (cfg0.win 4).flush t = true ∧ i ∈ ((cfg0.win 4).blk t).view.set := by
  have hi0 : (i 0).val < 4 := (i 0).isLt
  have hi1 : (i 1).val < 12 := (i 1).isLt
  have hi2 : (i 2).val < 2048 := (i 2).isLt
  have hi3 : (i 3).val < 64 := (i 3).isLt
  obtain ⟨t, q0, q1, q2⟩ := idx_onto ⟨(i 0).val, hi0⟩ ⟨(i 1).val, hi1⟩ ⟨(i 2).val / 256, by omega⟩
  obtain ⟨-, -, -, -, ⟨e0, e1, e2, e3⟩, -⟩ := idx_facts t
  have q0 : win0_5.index t (0 : Fin 4) = (i 0).val := q0
  have q1 : win0_5.index t (1 : Fin 4) = (i 1).val := q1
  have q2 : win0_5.index t (2 : Fin 4) = (i 2).val / 256 := q2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

end Cert.KernelIdeal.ArrValue

end
-- ==== Proof.KernelArr.lean ====
/-
  From tiles to arrays. Grid point (b, h, i) loads query rows 256·i … 256·i + 255 of head (b, h), that head's whole
  keys and values and batch b's additive mask row, and writes back rows 256·i … of the probability array and of the
  output array. The additive mask is computed on the host before the call: (1 − mask) · (−10⁴), with a unit axis
  inserted. What a point writes back is its block of the specification's array; the tiles cover both arrays, so each
  array after the run is the specification's array.
-/
import proofs.«141425_j47691316855177_1_alg».proof.Proof.Gen.KernelIdeal.Value
import proofs.«141425_j47691316855177_1_alg».proof.Proof.KernelPay
import proofs.«141425_j47691316855177_1_alg».proof.Proof.KernelGrid
import Idealize.ShloMosaic.Lib.StableHlo.Run

noncomputable section

namespace Cert.KernelIdeal.ArrValue

open Cert.KernelIdeal Cert.KernelIdeal.Gen Cert.KernelIdeal.TileValue
open Idealize.ShloMosaic Idealize.ShloMosaic.TcCoe Idealize.ShloMosaic.ValueIdx Idealize.SL.Sem Attn2Quad
open Idealize.ShloMosaic.Pipeline (Dat)

variable (m : (ℓ : Loc nD τ sig) → Buf (Elt Ideal) ℓ) (ρ : Dev nD → PrngReg)

/-! ## The arrays the region finds -/

/-- The mask window's array is the host's additive mask with a unit axis inserted. -/
theorem mask_arr (c : Dev nD) (b : Fin 4) (u : Fin 1) (j : Fin 2048) :
    (V m c main_v5 : S4x1x2048.Idx → EReal) (ix3 b u j) = addMask (m ((c : Thread nD τ).loc main_arg3)) b j := by
  have e : (V m c main_v5 : S4x1x2048.Idx → EReal)
      = shapeCast S4x1x2048 (mulf (subf (broadcastInDim S4x2048 ![] bcast_S_S4x2048 (constant (F := Ideal) S_ .f32 0x3F800000#32))
          (sitofp .f32 (m ((c : Thread nD τ).loc main_arg3))))
          (broadcastInDim S4x2048 ![] bcast_S_S4x2048 (constant (F := Ideal) S_ .f32 0xC61C4000#32))) shapeCasts_S4x2048_S4x1x2048 := by
    dsimp only [Gen.V, Gen.hostOps0]; after_results; rfl
  rw [e]
  refine (shapeCast_apply _ shapeCasts_S4x2048_S4x1x2048 (ix3 b u j) (ix2 b j) (by
    have hu : u.val = 0 := by omega
    rw [Shape.rowMajor_val_two, Shape.rowMajor_val_three]
    show b.val * 2048 + j.val = (b.val * 1 + u.val) * 2048 + j.val
    rw [hu, Nat.mul_one, Nat.add_zero])).trans ?_
  show (broadcastInDim S4x2048 ![] bcast_S_S4x2048 (constant (F := Ideal) S_ .f32 0x3F800000#32) (ix2 b j)
      - FloatOps.sitofp (F := Ideal) .f32 (m ((c : Thread nD τ).loc main_arg3) (ix2 b j)))
      * broadcastInDim S4x2048 ![] bcast_S_S4x2048 (constant (F := Ideal) S_ .f32 0xC61C4000#32) (ix2 b j) = _
  rw [broadcastInDim_apply _ bcast_S_S4x2048 (constant (F := Ideal) S_ .f32 0x3F800000#32) (ix2 b j) ix0 (fun a => a.elim0),
    broadcastInDim_apply _ bcast_S_S4x2048 (constant (F := Ideal) S_ .f32 0xC61C4000#32) (ix2 b j) ix0 (fun a => a.elim0)]
  rfl

/-! ## The blocks at a point, read by coordinates -/

/-- The query block's row r is row `rowOf t r` of head (batchOf t, headOf t). -/
theorem qblk_at (c : Dev nD) (t : Fin cfg0.N) (r : Fin 256) (d : Fin 64) :
    (iblk m c 0 t : Vec Ideal S1x1x256x64 .f32) (ix4 (0 : Fin 1) (0 : Fin 1) r d)
      = m ((c : Thread nD τ).loc main_arg0) (ix4 (batchOf t) (headOf t) (rowOf t r) d) := by
  obtain ⟨⟨e0, e1, e2, e3⟩, -⟩ := idx_facts t
  show V m c main_arg0 (((cfg0.win 0).blk t).view.emb (ix4 (0 : Fin 1) (0 : Fin 1) r d)) = _
  rw [V_main_arg0]
  refine congrArg _ (funext fun a => Fin.ext ?_)
  match a with
  | ⟨0, _⟩ => show win0_0.index t (0 : Fin 4) * 1 + 1 * 0 = win0_5.index t (0 : Fin 4); omega
  | ⟨1, _⟩ => show win0_0.index t (1 : Fin 4) * 1 + 1 * 0 = win0_5.index t (1 : Fin 4); omega
  | ⟨2, _⟩ => show win0_0.index t (2 : Fin 4) * 256 + 1 * r.val = win0_5.index t (2 : Fin 4) * 256 + r.val; omega
  | ⟨3, _⟩ => show win0_0.index t (3 : Fin 4) * 64 + 1 * d.val = d.val; omega

/-- The key block is head (batchOf t, headOf t)'s keys. -/
theorem kblk_at (c : Dev nD) (t : Fin cfg0.N) (j : Fin 2048) (d : Fin 64) :
    (iblk m c 1 t : Vec Ideal S1x1x2048x64 .f32) (ix4 (0 : Fin 1) (0 : Fin 1) j d)
      = m ((c : Thread nD τ).loc main_arg1) (ix4 (batchOf t) (headOf t) j d) := by
  obtain ⟨-, ⟨e0, e1, e2, e3⟩, -⟩ := idx_facts t
  show V m c main_arg1 (((cfg0.win 1).blk t).view.emb (ix4 (0 : Fin 1) (0 : Fin 1) j d)) = _
  rw [V_main_arg1]
  refine congrArg _ (funext fun a => Fin.ext ?_)
  match a with
  | ⟨0, _⟩ => show win0_1.index t (0 : Fin 4) * 1 + 1 * 0 = win0_5.index t (0 : Fin 4); omega
  | ⟨1, _⟩ => show win0_1.index t (1 : Fin 4) * 1 + 1 * 0 = win0_5.index t (1 : Fin 4); omega
  | ⟨2, _⟩ => show win0_1.index t (2 : Fin 4) * 2048 + 1 * j.val = j.val; omega
  | ⟨3, _⟩ => show win0_1.index t (3 : Fin 4) * 64 + 1 * d.val = d.val; omega

/-- The value block is head (batchOf t, headOf t)'s values. -/
theorem vblk_at (c : Dev nD) (t : Fin cfg0.N) (j : Fin 2048) (d : Fin 64) :
    (iblk m c 2 t : Vec Ideal S1x1x2048x64 .f32) (ix4 (0 : Fin 1) (0 : Fin 1) j d)
      = m ((c : Thread nD τ).loc main_arg2) (ix4 (batchOf t) (headOf t) j d) := by
  obtain ⟨-, -, ⟨e0, e1, e2, e3⟩, -⟩ := idx_facts t
  show V m c main_arg2 (((cfg0.win 2).blk t).view.emb (ix4 (0 : Fin 1) (0 : Fin 1) j d)) = _
  rw [V_main_arg2]
  refine congrArg _ (funext fun a => Fin.ext ?_)
  match a with
  | ⟨0, _⟩ => show win0_2.index t (0 : Fin 4) * 1 + 1 * 0 = win0_5.index t (0 : Fin 4); omega
  | ⟨1, _⟩ => show win0_2.index t (1 : Fin 4) * 1 + 1 * 0 = win0_5.index t (1 : Fin 4); omega
  | ⟨2, _⟩ => show win0_2.index t (2 : Fin 4) * 2048 + 1 * j.val = j.val; omega
  | ⟨3, _⟩ => show win0_2.index t (3 : Fin 4) * 64 + 1 * d.val = d.val; omega

/-- The mask block is batch `batchOf t`'s additive mask row. -/
theorem mblk_at (c : Dev nD) (t : Fin cfg0.N) (j : Fin 2048) :
    (iblk m c 3 t : Vec Ideal S1x1x2048 .f32) (ix3 (0 : Fin 1) (0 : Fin 1) j)
      = addMask (m ((c : Thread nD τ).loc main_arg3)) (batchOf t) j := by
  obtain ⟨-, -, -, ⟨e0, e1, e2⟩, -⟩ := idx_facts t
  show (V m c main_v5 : S4x1x2048.Idx → EReal) (((cfg0.win 3).blk t).view.emb (ix3 (0 : Fin 1) (0 : Fin 1) j)) = _
  refine Eq.trans (congrArg _ (funext fun a => Fin.ext ?_)) (mask_arr m c (batchOf t) (0 : Fin 1) j)
  match a with
  | ⟨0, _⟩ => show win0_3.index t (0 : Fin 3) * 1 + 1 * 0 = win0_5.index t (0 : Fin 4); omega
  | ⟨1, _⟩ => show win0_3.index t (1 : Fin 3) * 1 + 1 * 0 = 0; omega
  | ⟨2, _⟩ => show win0_3.index t (2 : Fin 3) * 2048 + 1 * j.val = j.val; omega

/-! ## What each point writes back -/

/-- Point `t` writes back its block of the probability array. -/
theorem flushed5_eq (c : Dev nD) (t : Fin cfg0.N) :
    (dats m 0 c).flushed 5 t = ((cfg0.win 5).blk t).view.read (Elt Ideal)
      (probArr (m ((c : Thread nD τ).loc main_arg0)) (m ((c : Thread nD τ).loc main_arg1)) (m ((c : Thread nD τ).loc main_arg3))) := by
  rw [Value.flushed5]
  unfold out0_5
  rw [View.canon_unit_zero hz4]
  simp only [View.ld_unit_zero (S := S1x1x256x64) hz4, View.ld_unit_zero (S := S1x1x2048x64) hz4, View.ld_unit_zero (S := S1x1x2048) hz3]
  funext y
  have hy0 : (y 0).val < 1 := (y 0).isLt
  have hy1 : (y 1).val < 1 := (y 1).isLt
  have hy2 : (y 2).val < 256 := (y 2).isLt
  have hy3 : (y 3).val < 2048 := (y 3).isLt
  obtain ⟨-, -, -, -, -, ⟨b0, b1, b2, b3⟩⟩ := idx_facts t
  have he : ((cfg0.win 5).blk t).view.emb y = ix4 (batchOf t) (headOf t) (rowOf t (y 2)) (y 3) := by
    funext a; apply Fin.ext
    match a with
    | ⟨0, _⟩ => show win0_5.index t (0 : Fin 4) * 1 + 1 * (y 0).val = win0_5.index t (0 : Fin 4); omega
    | ⟨1, _⟩ => show win0_5.index t (1 : Fin 4) * 1 + 1 * (y 1).val = win0_5.index t (1 : Fin 4); omega
    | ⟨2, _⟩ => show win0_5.index t (2 : Fin 4) * 256 + 1 * (y 2).val = win0_5.index t (2 : Fin 4) * 256 + (y 2).val; omega
    | ⟨3, _⟩ => show win0_5.index t (3 : Fin 4) * 2048 + 1 * (y 3).val = (y 3).val; omega
  show k0_pay3 (F := Ideal) (iblk m c 0 t) (iblk m c 1 t) (iblk m c 3 t) y
    = probArr (m ((c : Thread nD τ).loc main_arg0)) (m ((c : Thread nD τ).loc main_arg1)) (m ((c : Thread nD τ).loc main_arg3)) (((cfg0.win 5).blk t).view.emb y)
  rw [he]
  exact prob_point (iblk m c 0 t) (iblk m c 1 t) (iblk m c 3 t) (qblk_at m c t) (kblk_at m c t) (mblk_at m c t) y

/-- Point `t` writes back its block of the output array. -/
theorem flushed4_eq (c : Dev nD) (t : Fin cfg0.N) :
    (dats m 0 c).flushed 4 t = ((cfg0.win 4).blk t).view.read (Elt Ideal)
      (outArr (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero hz4]
  simp only [View.ld_unit_zero (S := S1x1x256x64) hz4, View.ld_unit_zero (S := S1x1x2048x64) hz4, View.ld_unit_zero (S := S1x1x2048) hz3]
  funext y
  have hy0 : (y 0).val < 1 := (y 0).isLt
  have hy1 : (y 1).val < 1 := (y 1).isLt
  have hy2 : (y 2).val < 256 := (y 2).isLt
  have hy3 : (y 3).val < 64 := (y 3).isLt
  obtain ⟨-, -, -, -, ⟨e0, e1, e2, e3⟩, ⟨b0, b1, b2, b3⟩⟩ := idx_facts t
  have he : ((cfg0.win 4).blk t).view.emb y = ix4 (batchOf t) (headOf t) (rowOf t (y 2)) (y 3) := by
    funext a; apply Fin.ext
    match a with
    | ⟨0, _⟩ => show win0_4.index t (0 : Fin 4) * 1 + 1 * (y 0).val = win0_5.index t (0 : Fin 4); omega
    | ⟨1, _⟩ => show win0_4.index t (1 : Fin 4) * 1 + 1 * (y 1).val = win0_5.index t (1 : Fin 4); omega
    | ⟨2, _⟩ => show win0_4.index t (2 : Fin 4) * 256 + 1 * (y 2).val = win0_5.index t (2 : Fin 4) * 256 + (y 2).val; omega
    | ⟨3, _⟩ => show win0_4.index t (3 : Fin 4) * 64 + 1 * (y 3).val = (y 3).val; omega
  show k0_pay1 (F := Ideal) (k0_pay4 (iblk m c 0 t) (iblk m c 1 t) (iblk m c 3 t)) (k0_pay5 (iblk m c 2 t)) (constant S256x64 .f32 0x00000000#32) y
    = outArr (m ((c : Thread nD τ).loc main_arg0)) (m ((c : Thread nD τ).loc main_arg1)) (m ((c : Thread nD τ).loc main_arg2)) (m ((c : Thread nD τ).loc main_arg3)) (((cfg0.win 4).blk t).view.emb y)
  rw [he]
  exact out_point (iblk m c 0 t) (iblk m c 1 t) (iblk m c 3 t) (iblk m c 2 t) (qblk_at m c t) (kblk_at m c t) (vblk_at m c t) (mblk_at m c t) y

/-! ## The arrays after the run -/

theorem final5 (c : Dev nD) : (dats m 0 c).arrAt 5 cfg0.N
    = probArr (m ((c : Thread nD τ).loc main_arg0)) (m ((c : Thread nD τ).loc main_arg1)) (m ((c : Thread nD τ).loc main_arg3)) :=
  (dats m 0 c).arrAt_eq_of_cover 5 _ (fun t _ => flushed5_eq m c t) cover5

theorem final4 (c : Dev nD) : (dats m 0 c).arrAt 4 cfg0.N
    = outArr (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c t) cover4

/-- The kernel's run: both results at the specification's arrays of the arguments, the arguments unchanged. -/
theorem run : θ_run defs (onTc (τ := τ) (main (F := Ideal))) ⟨m, fun _ => 0, ρ⟩ fun r => ∀ c : Dev nD,
      r.2.mem ((c : Thread nD τ).loc main_v6_0)
        = outArr (m ((c : Thread nD τ).loc main_arg0)) (m ((c : Thread nD τ).loc main_arg1)) (m ((c : Thread nD τ).loc main_arg2)) (m ((c : Thread nD τ).loc main_arg3))
      ∧ r.2.mem ((c : Thread nD τ).loc main_v6_1)
        = probArr (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.ArrValue

end
-- ==== Proof.lean ====
/-
  Quadratic attention normalised by a row sum, one Pallas call tiled over (batch, head, 256 query rows), against the
  einsum reference, over the extended reals.

  Both programs compute, for query row i and key j of head (b, h),
      score = (q_i · k_j) / 8 + (1 − mask[b, j]) · (−10⁴) + 3,   weight = score²,
      prob  = weight / (∑_j weight + ε),                          out_i = ∑_j prob_ij · v_j,
  with the same literals, so no law of arithmetic is needed beyond reading each side's matrix products and row sum
  as plain sums over the contracted axis: the kernel's inner product runs against the transposed key tile, the
  reference's against the keys with batch axes, and both read the same pair of rows. A change of float format is the
  identity at this instance, and the sum's zero start is the only literal evaluated. The precondition is not used.

  The reference's stages are read index by index in RefSide; the kernel's stored tiles in KernelPay; the tiles are
  placed on the grid and shown to cover the arrays in KernelGrid, and read back as the arrays in KernelArr. The frames are the generated ones, the reference's its
  generated run with the results dropped.
-/
import proofs.«141425_j47691316855177_1_alg».proof.Defs
import proofs.«141425_j47691316855177_1_alg».proof.Proof.Gen.Kernel
import proofs.«141425_j47691316855177_1_alg».proof.Proof.Gen.Kernel.Skeleton
import proofs.«141425_j47691316855177_1_alg».proof.Proof.Gen.Kernel.Launch
import proofs.«141425_j47691316855177_1_alg».proof.Proof.Gen.Kernel.Points
import proofs.«141425_j47691316855177_1_alg».proof.Proof.Gen.Kernel.Frame
import proofs.«141425_j47691316855177_1_alg».proof.Proof.Gen.KernelIdeal
import proofs.«141425_j47691316855177_1_alg».proof.Proof.Gen.KernelIdeal.Skeleton
import proofs.«141425_j47691316855177_1_alg».proof.Proof.Gen.KernelIdeal.Launch
import proofs.«141425_j47691316855177_1_alg».proof.Proof.Gen.KernelIdeal.Points
import proofs.«141425_j47691316855177_1_alg».proof.Proof.Gen.KernelIdeal.Frame
import proofs.«141425_j47691316855177_1_alg».proof.Proof.Gen.ReferenceIdeal
import proofs.«141425_j47691316855177_1_alg».proof.Proof.Gen.Pre_finite_inputs
import proofs.«141425_j47691316855177_1_alg».proof.Proof.Gen.KernelIdeal.Value
import proofs.«141425_j47691316855177_1_alg».proof.Proof.Gen.ReferenceIdeal.Run
import proofs.«141425_j47691316855177_1_alg».proof.Proof.Gen.ReferenceIdeal.Read
import proofs.«141425_j47691316855177_1_alg».proof.Proof.RefSide
import proofs.«141425_j47691316855177_1_alg».proof.Proof.KernelArr
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the specification's output and probability arrays of arguments that agree. -/
theorem algebraic : Cert.algebraic_KernelIdeal_ReferenceIdeal := by
  intro m ρ m' ρ' _ hagree
  refine ⟨_, _, Cert.KernelIdeal.ArrValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v20_eq _ _ _ _).trans (Cert.ReferenceIdeal.RefValue.out_eq _ _ _ _)
  · rw [(hagree c).1, (hagree c).2.1, (hagree c).2.2.2]
    exact (Cert.ReferenceIdeal.Read.val_main_v19_eq _ _ _).trans (Cert.ReferenceIdeal.RefValue.prob_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
